-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_arg7 : FVec F S128x16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x16 .f32) (main_arg6 : FVec F S16 .f32) (main_arg7 : FVec F S128x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S2000x128 : Shape := ⟨2, ![2000, 128]⟩
abbrev S1x128 : Shape := ⟨2, ![1, 128]⟩
abbrev S100000x16 : Shape := ⟨2, ![100000, 16]⟩
abbrev S2000x16 : Shape := ⟨2, ![2000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 58
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S100000x128, .f32⟩
  | .hbm, ⟨52, _⟩ => ⟨S600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x16, .f32⟩
  | .local _ .vmem, ⟨14, _⟩ => ⟨S16, .f32⟩
  | .local _ .vmem, ⟨15, _⟩ => ⟨S128x16, .f32⟩
  | .local _ .vmem, ⟨16, _⟩ => ⟨S2000x16, .f32⟩
  | .local _ .vmem, ⟨17, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S100000x16.size a
  hwx1_5 : ∀ i : grid1.Coords, EltTy.bits .f32 = 32 ∨ (Rect.block (s := S100000x16) S2000x16.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S600000x1, .i32⟩
  | .hbm, ⟨58, _⟩ => ⟨S100000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S100000, .f32⟩
  | .hbm, ⟨63, _⟩ => ⟨S600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x16, .f32⟩
  | .hbm, ⟨91, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelHost.lean ====
/-
  The host side of the kernel program: neighbour sums and the mean's weight.

  Before each dense region the program computes, outside any kernel, from the edge list `e` (row 0 the source node of
  each edge, row 1 its destination) and a feature array `feat`:
    the neighbour sum      nsum feat s d : node v ↦ Σ over edges with destination v of feat(source)   (a gather, then
                           an accumulating scatter into zeros; a negative source index is wrapped by the node count),
    the in-degree          deg d, the same scatter of ones,
    the count              cnt d = max (deg d) 1,
    the weight             rcp d = 1 / cnt d,
  and hands the region  aggMul feat s d r = nsum feat s d · (r spread along the features).
  The two stretches of host operations are read here as these functions of the buffers they find, whatever those
  hold; buffers no operation writes are read back unchanged.
-/
import proofs.«103910_j56891136803141_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Hst

open Cert.KernelIdeal Cert.KernelIdeal.Gen
open Idealize.ShloMosaic Idealize.ShloMosaic.TcCoe Idealize.SL.Sem Idealize.ShloMosaic.StableHlo

variable {F : FTy → Type} [FloatOps F]

/-- The edges' source nodes: row 0 of the edge list. -/
def src (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The edges' destination nodes: row 1 of the edge list. -/
def dst (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The gather's index column: a negative source index has the node count added. -/
def gidx (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The neighbour sum of `feat`: each edge's source row, accumulated at the edge's destination, from zeros. -/
def nsum (feat : (⟨S100000x128, .f32⟩ : BufTy).Contents (Elt F)) (s d : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 d)
    (Host.gather gather_S100000x128_S600000x1_S600000x128_1_0_n_n_0_1_1128 feat (gidx s))

/-- The in-degree: a one accumulated at each edge's destination, from zeros. -/
def deg (d : (⟨S600000, .i32⟩ : BufTy).Contents (Elt F)) : (⟨S100000, .f32⟩ : BufTy).Contents (Elt F) :=
  Host.scatterAdd scatter_S100000_S600000x1_S600000_n_0_0_1
    (broadcastInDim S100000 ![] bcast_S_S100000 (constant S_ .f32 0x00000000#32))
    (broadcastInDim S600000x1 ![0] bcast_S600000_S600000x1_0 d)
    (broadcastInDim S600000 ![] bcast_S_S600000 (constant S_ .f32 0x3F800000#32))

/-- The count the mean divides by: the in-degree, at least one. -/
def cnt (d : (⟨S600000, .i32⟩ : BufTy).Contents (Elt F)) : (⟨S100000, .f32⟩ : BufTy).Contents (Elt F) :=
  maximumf (deg d) (broadcastInDim S100000 ![] bcast_S_S100000 (constant S_ .f32 0x3F800000#32))

/-- The mean's weight: one over the count. -/
def rcp (d : (⟨S600000, .i32⟩ : BufTy).Contents (Elt F)) : (⟨S100000, .f32⟩ : BufTy).Contents (Elt F) :=
  Host.divf (broadcastInDim S100000 ![] bcast_S_S100000 (constant S_ .f32 0x3F800000#32)) (cnt d)

/-- A per-node number spread along the 128 features. -/
def spread (r : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 r)

/-- What a dense region is handed as its aggregated operand: the neighbour sum times the spread weight. -/
def aggMul (feat : (⟨S100000x128, .f32⟩ : BufTy).Contents (Elt F)) (s d : (⟨S600000, .i32⟩ : BufTy).Contents (Elt F))
    (r : (⟨S100000, .f32⟩ : BufTy).Contents (Elt F)) : (⟨S100000x128, .f32⟩ : BufTy).Contents (Elt F) :=
  mulf (nsum feat s d) (spread r)

/-! ## The mean's pieces read at a node -/

/-- A per-node column spread along the features, at node `p` and feature `q`, is the column at `p`. -/
theorem spread_col (y : (⟨S100000x1, .f32⟩ : BufTy).Contents (Elt F)) (p : Fin 100000) (q : Fin 128) :
    broadcastInDim S100000x128 ![0, 1] bcast_S100000x1_S100000x128_0_1 y (ValueIdx.ix2 p q) = y (ValueIdx.ix2 p (0 : Fin 1)) :=
  broadcastInDim_apply _ bcast_S100000x1_S100000x128_0_1 y (ValueIdx.ix2 p q) (ValueIdx.ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A per-node number made a column, at node `p`, is the number at `p`. -/
theorem col_apply (r : (⟨S100000, .f32⟩ : BufTy).Contents (Elt F)) (p : Fin 100000) (z : Fin 1) :
    broadcastInDim S100000x1 ![0] bcast_S100000_S100000x1_0 r (ValueIdx.ix2 p z) = r (ValueIdx.ix1 p) :=
  broadcastInDim_apply _ bcast_S100000_S100000x1_0 r (ValueIdx.ix2 p z) (ValueIdx.ix1 p) (fun a => match a with
    | ⟨0, _⟩ => by show p.val = if (100000 : Nat) = 1 then 0 else p.val; rw [if_neg (by decide)])

/-- A spread number, at node `p` and feature `q`, is the number at `p`. -/
theorem spread_apply (r : (⟨S100000, .f32⟩ : BufTy).Contents (Elt F)) (p : Fin 100000) (q : Fin 128) :
    spread r (ValueIdx.ix2 p q) = r (ValueIdx.ix1 p) := by
  unfold spread
  rw [spread_col, col_apply]

/-- A word splat over the nodes, at any node, is the word's value. -/
theorem splat_apply (w : BitVec 32) (k : S100000.Idx) :
    broadcastInDim S100000 ![] bcast_S_S100000 (constant (F := F) S_ .f32 w) k = FloatOps.ofBits .f32 w :=
  broadcastInDim_apply _ bcast_S_S100000 (constant (F := F) S_ .f32 w) k (fun a => a.elim0) (fun a => a.elim0)

/-- The count at a node: the larger of its in-degree and one. -/
theorem cnt_apply (d : (⟨S600000, .i32⟩ : BufTy).Contents (Elt F)) (k : S100000.Idx) :
    cnt d k = FloatOps.maximumf (deg d k) (FloatOps.ofBits .f32 0x3F800000#32) := by
  unfold cnt
  show FloatOps.maximumf (deg d k) (broadcastInDim S100000 ![] bcast_S_S100000 (constant (F := F) S_ .f32 0x3F800000#32) k) = _
  rw [splat_apply]

/-- The weight at a node: one over the count. -/
theorem rcp_apply (d : (⟨S600000, .i32⟩ : BufTy).Contents (Elt F)) (k : S100000.Idx) :
    rcp d k = FloatOps.hostDivf (FloatOps.ofBits .f32 0x3F800000#32) (cnt d k) := by
  unfold rcp
  show FloatOps.hostDivf (broadcastInDim S100000 ![] bcast_S_S100000 (constant (F := F) S_ .f32 0x3F800000#32) k) (cnt d k) = _
  rw [splat_apply]

/-! ## The first stretch, from any contents `W` -/

variable (W : Valuation τ sig (Elt F))

theorem host0_src : StableHlo.after (hostOps0 (F := F)) W (Proc.devRef .tc main_v1) = src (W (Proc.devRef .tc main_arg1)) := by
  after_results_simp <;> rfl

theorem host0_dst : StableHlo.after (hostOps0 (F := F)) W (Proc.devRef .tc main_v3) = dst (W (Proc.devRef .tc main_arg1)) := by
  after_results_simp <;> rfl

theorem host0_rcp : StableHlo.after (hostOps0 (F := F)) W (Proc.devRef .tc main_v11) = rcp (dst (W (Proc.devRef .tc main_arg1))) := by
  after_results_simp <;> rfl

theorem host0_agg : StableHlo.after (hostOps0 (F := F)) W (Proc.devRef .tc main_v24)
    = aggMul (W (Proc.devRef .tc main_arg0)) (src (W (Proc.devRef .tc main_arg1))) (dst (W (Proc.devRef .tc main_arg1)))
        (rcp (dst (W (Proc.devRef .tc main_arg1)))) := by
  after_results_simp <;> rfl

theorem host0_arg0 : StableHlo.after (hostOps0 (F := F)) W (Proc.devRef .tc main_arg0) = W (Proc.devRef .tc main_arg0) := by
  after_results_simp <;> rfl
theorem host0_arg2 : StableHlo.after (hostOps0 (F := F)) W (Proc.devRef .tc main_arg2) = W (Proc.devRef .tc main_arg2) := by
  after_results_simp <;> rfl
theorem host0_arg3 : StableHlo.after (hostOps0 (F := F)) W (Proc.devRef .tc main_arg3) = W (Proc.devRef .tc main_arg3) := by
  after_results_simp <;> rfl
theorem host0_arg4 : StableHlo.after (hostOps0 (F := F)) W (Proc.devRef .tc main_arg4) = W (Proc.devRef .tc main_arg4) := by
  after_results_simp <;> rfl
theorem host0_arg5 : StableHlo.after (hostOps0 (F := F)) W (Proc.devRef .tc main_arg5) = W (Proc.devRef .tc main_arg5) := by
  after_results_simp <;> rfl
theorem host0_arg6 : StableHlo.after (hostOps0 (F := F)) W (Proc.devRef .tc main_arg6) = W (Proc.devRef .tc main_arg6) := by
  after_results_simp <;> rfl
theorem host0_arg7 : StableHlo.after (hostOps0 (F := F)) W (Proc.devRef .tc main_arg7) = W (Proc.devRef .tc main_arg7) := by
  after_results_simp <;> rfl

/-! ## The second stretch, from any contents `W` -/

theorem host1_agg : StableHlo.after (hostOps1 (F := F)) W (Proc.devRef .tc main_v38)
    = aggMul (W (Proc.devRef .tc main_v25)) (W (Proc.devRef .tc main_v1)) (W (Proc.devRef .tc main_v3)) (W (Proc.devRef .tc main_v11)) := by
  after_results_simp <;> rfl

theorem host1_hid : StableHlo.after (hostOps1 (F := F)) W (Proc.devRef .tc main_v25) = W (Proc.devRef .tc main_v25) := by
  after_results_simp <;> rfl
theorem host1_arg5 : StableHlo.after (hostOps1 (F := F)) W (Proc.devRef .tc main_arg5) = W (Proc.devRef .tc main_arg5) := by
  after_results_simp <;> rfl
theorem host1_arg6 : StableHlo.after (hostOps1 (F := F)) W (Proc.devRef .tc main_arg6) = W (Proc.devRef .tc main_arg6) := by
  after_results_simp <;> rfl
theorem host1_arg7 : StableHlo.after (hostOps1 (F := F)) W (Proc.devRef .tc main_arg7) = W (Proc.devRef .tc main_arg7) := by
  after_results_simp <;> rfl

end Cert.KernelIdeal.Hst

end
-- ==== Proof.SageSpec.lean ====
/-
  Two graph-convolution layers with mean aggregation: what one node computes.

  A layer sends the aggregated neighbour features `a` and the own features `x` of node `p` to
      (Σ_κ a(p,κ)·Wl(κ,q) + b(q)) + Σ_κ x(p,κ)·Wr(κ,q)              (`lin`).
  The hidden layer clamps this below at zero (`hidden`); the output layer takes, over the classes `q` of a node, the
  logarithm of the softmax, computed about the row's maximum (`logSoftmax`, `output`).

  Every function here is ROW-LOCAL: row `p` of the result reads row `p` of `a` and of `x` and nothing else of them. So
  a block of consecutive rows of the result is the same function of the same block of rows of the operands
  (`hidden_rows`, `output_rows`): that is what lets a computation tiled over the nodes be read as one whole-array function.

  The mean: a node's neighbour sum times the reciprocal of a count `d ≠ 0` is the sum divided by `d`
  (`mul_recip_eq_div`), on every extended real, and `max(deg, 1)` is never zero (`max_one_ne_zero`).
-/
import Idealize.ShloMosaic.PureOps.Ideal.Laws
import Idealize.ShloMosaic.Lib.ValueIdx
import Idealize.ShloMosaic.Lib.IdealHost

noncomputable section

open scoped BigOperators

namespace Cert.Sage
open Idealize.ShloMosaic Idealize.ShloMosaic.ValueIdx

/-- An R×C array of extended reals. -/
abbrev Mat (R C : Nat) : Type := (⟨2, ![R, C]⟩ : Shape).Idx → EReal
/-- A length-C vector of extended reals. -/
abbrev Row (C : Nat) : Type := (⟨1, ![C]⟩ : Shape).Idx → EReal

/-- The zero word, the one word and the word of -∞, as extended reals. -/
abbrev zeroW : EReal := Ideal.ofBits .f32 0x00000000#32
abbrev oneW : EReal := Ideal.ofBits .f32 0x3F800000#32
abbrev negInfW : EReal := Ideal.ofBits .f32 0xFF800000#32

/-- One layer at node `p`, output feature `q`: the neighbour term with its bias, plus the root term. -/
def lin {R K N : Nat} (a x : Mat R K) (Wl : Mat K N) (b : Row N) (Wr : Mat K N) (p : Fin R) (q : Fin N) : EReal :=
  (∑ κ : Fin K, a (ix2 p κ) * Wl (ix2 κ q) + b (ix1 q)) + ∑ κ : Fin K, x (ix2 p κ) * Wr (ix2 κ q)

/-- The layer as an array. -/
def scores {R K N : Nat} (a x : Mat R K) (Wl : Mat K N) (b : Row N) (Wr : Mat K N) : Mat R N :=
  fun j => lin a x Wl b Wr (j 0) (j 1)

/-- The hidden layer: the layer clamped below at zero. -/
def hidden {R K N : Nat} (a x : Mat R K) (Wl : Mat K N) (b : Row N) (Wr : Mat K N) : Mat R N :=
  fun j => max (lin a x Wl b Wr (j 0) (j 1)) zeroW

/-- A row's maximum as both programs take it: the fold of max from -∞ over the row, then once more against -∞. -/
def rowMax {R N : Nat} (z : Mat R N) (p : Fin R) : EReal :=
  max negInfW ((Finset.univ : Finset (Fin N)).fold max negInfW fun k => z (ix2 p k))

/-- The logarithm of the softmax along each row, about the row's maximum. -/
def logSoftmax {R N : Nat} (z : Mat R N) : Mat R N := fun j =>
  (z (ix2 (j 0) (j 1)) - rowMax z (j 0)) - Ideal.log (∑ k : Fin N, Ideal.exp (z (ix2 (j 0) k) - rowMax z (j 0)))

/-- The output layer: the layer's scores, then the logarithm of the softmax over the classes. -/
def output {R K N : Nat} (a x : Mat R K) (Wl : Mat K N) (b : Row N) (Wr : Mat K N) : Mat R N :=
  logSoftmax (scores a x Wl b Wr)

/-! ## Row-locality -/

theorem lin_rows {R R' K N : Nat} (a x : Mat R K) (a' x' : Mat R' K) (Wl : Mat K N) (b : Row N) (Wr : Mat K N)
    (p : Fin R) (p' : Fin R') (ha : ∀ κ, a' (ix2 p' κ) = a (ix2 p κ)) (hx : ∀ κ, x' (ix2 p' κ) = x (ix2 p κ)) (q : Fin N) :
    lin a' x' Wl b Wr p' q = lin a x Wl b Wr p q := by
  unfold lin
  simp only [ha, hx]

/-- Row `p'` of the hidden layer of a block is row `p` of the hidden layer of the whole, when the block's rows `p'`
    are the whole's rows `p`. -/
theorem hidden_rows {R R' K N : Nat} (a x : Mat R K) (a' x' : Mat R' K) (Wl : Mat K N) (b : Row N) (Wr : Mat K N)
    (p : Fin R) (p' : Fin R') (ha : ∀ κ, a' (ix2 p' κ) = a (ix2 p κ)) (hx : ∀ κ, x' (ix2 p' κ) = x (ix2 p κ)) (q : Fin N) :
    hidden a' x' Wl b Wr (ix2 p' q) = hidden a x Wl b Wr (ix2 p q) := by
  show max (lin a' x' Wl b Wr p' q) zeroW = max (lin a x Wl b Wr p q) zeroW
  rw [lin_rows a x a' x' Wl b Wr p p' ha hx q]

theorem scores_rows {R R' K N : Nat} (a x : Mat R K) (a' x' : Mat R' K) (Wl : Mat K N) (b : Row N) (Wr : Mat K N)
    (p : Fin R) (p' : Fin R') (ha : ∀ κ, a' (ix2 p' κ) = a (ix2 p κ)) (hx : ∀ κ, x' (ix2 p' κ) = x (ix2 p κ)) (q : Fin N) :
    scores a' x' Wl b Wr (ix2 p' q) = scores a x Wl b Wr (ix2 p q) :=
  lin_rows a x a' x' Wl b Wr p p' ha hx q

/-- The same for the logarithm of the softmax: it reads one row. -/
theorem logSoftmax_rows {R R' N : Nat} (z : Mat R N) (z' : Mat R' N) (p : Fin R) (p' : Fin R')
    (hz : ∀ k, z' (ix2 p' k) = z (ix2 p k)) (q : Fin N) :
    logSoftmax z' (ix2 p' q) = logSoftmax z (ix2 p q) := by
  have hm : rowMax z' p' = rowMax z p := by unfold rowMax; simp only [hz]
  show (z' (ix2 p' q) - rowMax z' p') - Ideal.log (∑ k : Fin N, Ideal.exp (z' (ix2 p' k) - rowMax z' p'))
      = (z (ix2 p q) - rowMax z p) - Ideal.log (∑ k : Fin N, Ideal.exp (z (ix2 p k) - rowMax z p))
  simp only [hz, hm]

/-- Row `p'` of the output layer of a block is row `p` of the output layer of the whole. -/
theorem output_rows {R R' K N : Nat} (a x : Mat R K) (a' x' : Mat R' K) (Wl : Mat K N) (b : Row N) (Wr : Mat K N)
    (p : Fin R) (p' : Fin R') (ha : ∀ κ, a' (ix2 p' κ) = a (ix2 p κ)) (hx : ∀ κ, x' (ix2 p' κ) = x (ix2 p κ)) (q : Fin N) :
    output a' x' Wl b Wr (ix2 p' q) = output a x Wl b Wr (ix2 p q) :=
  logSoftmax_rows _ _ p p' (fun k => scores_rows a x a' x' Wl b Wr p p' ha hx k) q

/-! ## The mean -/

/-- The one word is the real 1, so the maximum of anything with it is positive, hence not zero. -/
theorem max_one_ne_zero (x : EReal) : max x oneW ≠ 0 := by
  have h1 : oneW = 1 := Ideal.ofBits_one_f32
  have : (0 : EReal) < max x oneW := lt_of_lt_of_le (by rw [h1]; exact zero_lt_one) (le_max_right x oneW)
  exact ne_of_gt this

/-- A sum times the reciprocal of a nonzero count is the sum divided by the count, on every extended real. -/
theorem mul_recip_eq_div (s d : EReal) (hd : d ≠ 0) : s * Ideal.div oneW d = Ideal.div s d := by
  have h1 : oneW = 1 := Ideal.ofBits_one_f32
  rw [h1, Ideal.div, if_neg hd, Ideal.div, if_neg hd, one_mul]

end Cert.Sage

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Region0.lean ====
/-
  Region 0 of the kernel program as one whole-array function.

  The region tiles the 100000 nodes into 50 blocks of 2000 rows. At point t the body loads rows [2000·t, 2000·t + 2000) of
  the aggregated neighbour features and of the own features, and the two weight matrices and the bias whole, and stores
      max((Σ_κ a(p,κ)·Wl(κ,q) + b(q)) + Σ_κ x(p,κ)·Wr(κ,q), 0)
  into rows [2000·t, 2000·t + 2000) of the output: the hidden layer of the loaded blocks (`pay_eq`). The hidden layer is
  row-local, so the block a point writes back is the same rows of the hidden layer of the WHOLE operand arrays; the 50
  blocks tile the output's rows (row r lies in block r / 2000), so after all points the output array is the hidden layer
  of the whole arrays (`arr`), whatever the region finds in them.
-/
import proofs.«103910_j56891136803141_1_alg».proof.Proof.Gen.KernelIdeal.Frame
import proofs.«103910_j56891136803141_1_alg».proof.Proof.SageSpec
import proofs.«103910_j56891136803141_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The matrix products of the body contract the left operand's columns with the right operand's rows, with no batch axes. -/
theorem plain_dot : PlainDot.IsPlain dot_S2000x128_S128x128_S2000x128_1_0_0_1_n_n := ⟨rfl, rfl, rfl, rfl, rfl, rfl⟩

/-- The body's stored value, as a function of the blocks it loads, is the hidden layer of those blocks. -/
theorem pay_eq (x0 x1 : Vec Ideal S2000x128 .f32) (x2 x4 : Vec Ideal S128x128 .f32) (x3 : Vec Ideal S128 .f32) :
    k0_pay1 (F := Ideal) x0 x1 x2 x4 x3 = Cert.Sage.hidden x0 x1 x2 x3 x4 := by
  funext j
  obtain ⟨p, q, rfl⟩ : ∃ (p : Fin 2000) (q : Fin 128), j = ix2 p q := ⟨j 0, j 1, eq_ix2 j⟩
  unfold k0_pay1
  -- the cast to the same shape is the identity; on extended reals so is the narrowing to the product's operand format
  simp only [shapeCast_self]
  -- at (p, q): the maximum with the zero word of (neighbour product + bias row) + root product
  show max (_ + _ + _) _ = max (Cert.Sage.lin x0 x1 x2 x3 x4 p q) _
  unfold Cert.Sage.lin
  refine congrArg₂ max (congrArg₂ (· + ·) (congrArg₂ (· + ·) ?_ ?_) ?_) rfl
  · exact PlainDot.matmul_zero_plain _ plain_dot none _ _ p q
  · -- the bias, cast to one row and broadcast down the rows, reads its entry q
    exact (broadcastTo_1b_ab_apply _ _ p q).trans (shapeCast_a_1a_apply x3 _ 0 q)
  · exact PlainDot.matmul_zero_plain _ plain_dot none _ _ p q

variable (V : (c : Dev nD) → (b : Ref sig .tc) → Buf (Elt Ideal) ((c : Thread nD τ).loc b))

/-! ## Where each window's block sits in its array -/

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The index maps over the grid: the two row-tiled operands and the output are at block (t, 0) at point t, the weights
    and the bias at block 0 at every point; and there are 50 points. -/
theorem index_maps : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-features block at point t is row 2000·t + p of the array. -/
theorem agg_block_apply (c : Dev nD) (t : Fin cfg0.N) (p : Fin 2000) (κ : Fin 128) (h : 2000 * t.val + p.val < 100000) :
    (iblk0 V c 0 t : Vec Ideal S2000x128 .f32) (ix2 p κ)
      = (V c main_v24 : S100000x128.Idx → EReal) (ix2 (⟨2000 * t.val + p.val, h⟩ : Fin 100000) κ) := by
  show V c main_v24 (((cfg0.win 0).blk t).view.emb (ix2 p κ)) = V c main_v24 _
  refine congrArg _ ?_
  obtain ⟨-, e0, e1, -⟩ := index_maps t
  funext a; apply Fin.ext
  match a with
  | ⟨0, _⟩ => show win0_0.index t (0 : Fin 2) * 2000 + 1 * p.val = 2000 * t.val + p.val; omega
  | ⟨1, _⟩ => show win0_0.index t (1 : Fin 2) * 128 + 1 * κ.val = κ.val; omega

/-- Row p of the own-features block at point t is row 2000·t + p of the array. -/
theorem own_block_apply (c : Dev nD) (t : Fin cfg0.N) (p : Fin 2000) (κ : Fin 128) (h : 2000 * t.val + p.val < 100000) :
    (iblk0 V c 1 t : Vec Ideal S2000x128 .f32) (ix2 p κ)
      = (V c main_arg0 : S100000x128.Idx → EReal) (ix2 (⟨2000 * t.val + p.val, h⟩ : Fin 100000) κ) := by
  show V c main_arg0 (((cfg0.win 1).blk t).view.emb (ix2 p κ)) = V c main_arg0 _
  refine congrArg _ ?_
  obtain ⟨-, -, -, e0, e1, -⟩ := index_maps t
  funext a; apply Fin.ext
  match a with
  | ⟨0, _⟩ => show win0_1.index t (0 : Fin 2) * 2000 + 1 * p.val = 2000 * t.val + p.val; omega
  | ⟨1, _⟩ => show win0_1.index t (1 : Fin 2) * 128 + 1 * κ.val = κ.val; omega

/-- The neighbour weights' block is the whole matrix at every point. -/
theorem wl_block (c : Dev nD) (t : Fin cfg0.N) : (iblk0 V c 2 t : Vec Ideal S128x128 .f32) = V c main_arg2 := by
  funext y
  show V c main_arg2 (((cfg0.win 2).blk t).view.emb y) = V c main_arg2 y
  refine congrArg _ ?_
  obtain ⟨-, -, -, -, -, e0, e1, -⟩ := index_maps t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block is the whole vector at every point. -/
theorem bias_block (c : Dev nD) (t : Fin cfg0.N) : (iblk0 V c 3 t : Vec Ideal S128 .f32) = V c main_arg3 := by
  funext y
  show V c main_arg3 (((cfg0.win 3).blk t).view.emb y) = V c main_arg3 y
  refine congrArg _ ?_
  obtain ⟨-, -, -, -, -, -, -, e0, -⟩ := index_maps t
  funext a; apply Fin.ext
  match a with
  | ⟨0, _⟩ => show win0_3.index t (0 : Fin 1) * 128 + 1 * (y 0).val = (y 0).val; omega

/-- The root weights' block is the whole matrix at every point. -/
theorem wr_block (c : Dev nD) (t : Fin cfg0.N) : (iblk0 V c 4 t : Vec Ideal S128x128 .f32) = V c main_arg4 := by
  funext y
  show V c main_arg4 (((cfg0.win 4).blk t).view.emb y) = V c main_arg4 y
  refine congrArg _ ?_
  obtain ⟨-, -, -, -, -, -, -, -, e0, e1, -⟩ := index_maps t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry (p, q) of the output's block at point t is entry (2000·t + p, q) of the output array. -/
theorem out_block_index (t : Fin cfg0.N) (p : Fin 2000) (q : Fin 128) (h : 2000 * t.val + p.val < 100000) :
    (((cfg0.win 5).blk t).view.emb (ix2 p q) : S100000x128.Idx) = ix2 (⟨2000 * t.val + p.val, h⟩ : Fin 100000) q := by
  obtain ⟨-, -, -, -, -, -, -, -, -, -, e0, e1⟩ := index_maps t
  funext a; apply Fin.ext
  match a with
  | ⟨0, _⟩ => show win0_5.index t (0 : Fin 2) * 2000 + 1 * p.val = 2000 * t.val + p.val; omega
  | ⟨1, _⟩ => show win0_5.index t (1 : Fin 2) * 128 + 1 * q.val = q.val; omega

/-! ## What each point writes back, and the array -/

/-- The hidden layer is row-local and reads the weights and the bias whole: on a block of rows, with the same weights and
    bias, it is the corresponding rows of the hidden layer of the whole arrays. -/
theorem hidden_block {R R' K N : Nat} (a x : Cert.Sage.Mat R K) (a' x' : Cert.Sage.Mat R' K)
    (Wl Wl' Wr Wr' : Cert.Sage.Mat K N) (b b' : Cert.Sage.Row N) (hWl : Wl' = Wl) (hb : b' = b) (hWr : Wr' = Wr)
    (p : Fin R) (p' : Fin R') (ha : ∀ κ, a' (ix2 p' κ) = a (ix2 p κ)) (hx : ∀ κ, x' (ix2 p' κ) = x (ix2 p κ)) (q : Fin N) :
    Cert.Sage.hidden a' x' Wl' b' Wr' (ix2 p' q) = Cert.Sage.hidden a x Wl b Wr (ix2 p q) := by
  subst hWl hb hWr
  exact Cert.Sage.hidden_rows a x a' x' Wl' b' Wr' p p' ha hx q

/-- What point t writes back is block t of the hidden layer of the whole operand arrays. -/
theorem written_back_eq_hidden_block (c : Dev nD) (t : Fin cfg0.N) :
    (dat0 (F := Ideal) V c).flushed 5 t = ((cfg0.win 5).blk t).view.read (Elt Ideal)
      (Cert.Sage.hidden (V c main_v24) (V c main_arg0) (V c main_arg2) (V c main_arg3) (V c main_arg4)) := by
  show (cfg0.win 5).cut (grid0.coords t) ((dat0 V c).after 5 t) = _
  rw [after0_5]
  unfold out0_5
  rw [View.canon_unit_zero zero_offsets₂]
  simp only [View.ld_unit_zero (S := S2000x128) zero_offsets₂, View.ld_unit_zero (S := S128x128) zero_offsets₂,
    View.ld_unit_zero (S := S128) zero_offsets₁]
  rw [pay_eq]
  funext y
  obtain ⟨p, q, rfl⟩ : ∃ (p : Fin 2000) (q : Fin 128), y = ix2 p q := ⟨y 0, y 1, eq_ix2 y⟩
  have ht : t.val < 50 := (index_maps t).1
  have hp : p.val < 2000 := p.isLt
  have hr : 2000 * t.val + p.val < 100000 := by omega
  show Cert.Sage.hidden (iblk0 V c 0 t) (iblk0 V c 1 t) (iblk0 V c 2 t) (iblk0 V c 3 t) (iblk0 V c 4 t) (ix2 p q)
      = Cert.Sage.hidden (V c main_v24) (V c main_arg0) (V c main_arg2) (V c main_arg3) (V c main_arg4)
          (((cfg0.win 5).blk t).view.emb (ix2 p q))
  rw [out_block_index t p q hr]
  exact hidden_block (V c main_v24) (V c main_arg0) (iblk0 V c 0 t) (iblk0 V c 1 t)
    (V c main_arg2) (iblk0 V c 2 t) (V c main_arg4) (iblk0 V c 4 t) (V c main_arg3) (iblk0 V c 3 t)
    (wl_block V c t) (bias_block V c t) (wr_block V c t) ⟨2000 * t.val + p.val, hr⟩ p
    (fun κ => agg_block_apply V c t p κ hr) (fun κ => own_block_apply V c t p κ hr) q

/-- An index of the output array is in point t's block iff each coordinate is in the block's range on its axis. -/
theorem mem_out_block (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v25).slice (win0_5.rect t)).set ↔ _
  rw [View.set_slice_whole, Rect.mem_set_unit]
  exact Iff.rfl

/-- The blocks tile the rows: row r is in the block of point r / 2000, and every point writes back. -/
theorem out_blocks_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, -, e0, e1⟩ := index_maps t
  refine ⟨t, flush0_5 t, ?_⟩
  rw [mem_out_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The region's output array after all its grid points, whatever the region finds in its operands' arrays (`V`):
    the hidden layer of the whole operand arrays. -/
theorem arr (c : Dev nD) :
    (dat0 (F := Ideal) V c).arrAt 5 cfg0.N
      = Cert.Sage.hidden (V c main_v24) (V c main_arg0) (V c main_arg2) (V c main_arg3) (V c main_arg4) :=
  (dat0 V c).arrAt_eq_of_cover 5 _ (fun t _ => written_back_eq_hidden_block V c t) out_blocks_cover

end Cert.KernelIdeal.R0

end
-- ==== Proof.Region1.lean ====
/-
  Region 1 of the kernel program as one whole-array function.

  The body of the region, at each of its 50 grid points, loads a block of 2000 rows of the aggregated and of the own
  features together with the whole weight matrices and bias, and stores
      log-softmax over the 16 classes of  (a·Wl + b) + x·Wr
  of those rows. Two facts are proved here.

  `pay_eq`: the stored value, a function of the loaded blocks, is the output layer (`Cert.Sage.output`) of those
  blocks. The scores are read at an index through the two matrix products and the bias row (`scores_at`); the tail —
  row maximum from -∞, subtraction, exponential, row sum, logarithm, subtraction — is read on arbitrary scores
  (`rowMax_at`, `logSoftmax_at`), the per-row vectors passing through a column and a spread over the classes
  (`column_at`).

  `arr`: after all grid points the output array is the output layer of the WHOLE operand arrays. The output layer is
  row-local, so block `t` of it is the output layer of block `t` of the operands (`flushed_eq`, from
  `Cert.Sage.output_rows` and the block reads `agg_block_at` … `wr_block`), and the 50 blocks of 2000 rows cover the
  100000 rows (`covered`: row `r` lies in block `r / 2000`).
-/
import proofs.«103910_j56891136803141_1_alg».proof.Proof.Gen.KernelIdeal.Frame
import proofs.«103910_j56891136803141_1_alg».proof.Proof.SageSpec
import proofs.«103910_j56891136803141_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## Reading the layout operations of the body at an index -/

/-- The index over row `p` with class coordinate `k` inserted. -/
theorem lift_row (h : S2000x16.Reduces [1] S2000) (p : Fin 2000) (k : Fin 16) : h.lift (ix1 p) k = ix2 p k := by
  funext a; match a with | ⟨0, _⟩ => rfl | ⟨1, _⟩ => rfl

/-- A length-`a` vector cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row vector made a column and spread over the classes reads, at `(p, q)`, the vector at `p`. -/
theorem column_at {α : Type} (m : S2000.Idx → α) (p : Fin 2000) (q : Fin 16) :
    broadcastTo S2000x16 (shapeCast S2000x1 m shapeCasts_S2000_S2000x1) broadcasts_S2000x1_S2000x16 (ix2 p q) = m (ix1 p) :=
  (broadcastTo_a1_ab_apply _ _ p q).trans (shapeCast_a_a1_apply m _ p 0)

/-! ## The body's stored value -/

/-- The dimension numbers of the body's two products contract the left operand's columns with the right's rows. -/
theorem dot_plain : PlainDot.IsPlain dot_S2000x128_S128x16_S2000x16_1_0_0_1_n_n := ⟨rfl, rfl, rfl, rfl, rfl, rfl⟩

/-- The scores as the body computes them, at `(p, q)`: the layer at node `p`, class `q`. -/
theorem scores_at (x0 x1 : Vec Ideal S2000x128 .f32) (x2 x4 : Vec Ideal S128x16 .f32) (x3 : Vec Ideal S16 .f32) (p : Fin 2000) (q : Fin 16) :
    addf (addf (matmul dot_S2000x128_S128x16_S2000x16_1_0_0_1_n_n none
                  (truncf .bf16 (shapeCast S2000x128 x0 shapeCasts_S2000x128_S2000x128) bitsLt_bf16_f32)
                  (truncf .bf16 x2 bitsLt_bf16_f32) (constant (F := Ideal) S2000x16 .f32 0x00000000#32))
               (broadcastTo S2000x16 (shapeCast S1x16 x3 shapeCasts_S16_S1x16) broadcasts_S1x16_S2000x16))
         (matmul dot_S2000x128_S128x16_S2000x16_1_0_0_1_n_n none
                  (truncf .bf16 (shapeCast S2000x128 x1 shapeCasts_S2000x128_S2000x128) bitsLt_bf16_f32)
                  (truncf .bf16 x4 bitsLt_bf16_f32) (constant (F := Ideal) S2000x16 .f32 0x00000000#32)) (ix2 p q)
      = Cert.Sage.lin x0 x1 x2 x3 x4 p q := by
  rw [shapeCast_self, shapeCast_self]
  show (FloatOps.matmul _ none _ _ _ (ix2 p q) + broadcastTo S2000x16 _ _ (ix2 p q)) + FloatOps.matmul _ none _ _ _ (ix2 p q) = _
  rw [PlainDot.matmul_zero_plain _ dot_plain, PlainDot.matmul_zero_plain _ dot_plain, broadcastTo_1b_ab_apply, shapeCast_a_1a_apply]
  rfl

section Softmax
variable (z : FVec Ideal S2000x16 .f32) (hφ : FKind.Formats .f32)
  (hmax : (0xFF800000#32 : BitVec 32) = FKind.maximumf.neutral .f32 hφ)
  (hadd : (0x00000000#32 : BitVec 32) = FKind.add.neutral .f32 hφ)

/-- The row maximum as the body takes it: the fold of max from -∞ over the row, then once more against -∞. -/
theorem rowMax_at (p : Fin 2000) :
    maximumf (broadcast S2000 (FloatOps.ofBits (F := Ideal) .f32 0xFF800000#32))
      (multiReduction .maximumf [1] S2000 z 0xFF800000#32 reduces_S2000x16_S2000 hφ hmax) (ix1 p) = Cert.Sage.rowMax z p := by
  show max (Ideal.ofBits .f32 0xFF800000#32)
      (multiReduction .maximumf [1] S2000 z 0xFF800000#32 reduces_S2000x16_S2000 hφ hmax (ix1 p)) = _
  rw [Ideal.multiReduction_maximumf_single z _ reduces_S2000x16_S2000 hφ hmax (ix1 p)]
  exact congrArg (fun f => max Cert.Sage.negInfW ((Finset.univ : Finset (Fin 16)).fold max Cert.Sage.negInfW f))
    (funext fun k => congrArg z (lift_row _ p k))

/-- The body's tail on any scores `z`: the logarithm of the softmax along each row, about the row's maximum. -/
theorem logSoftmax_at (p : Fin 2000) (q : Fin 16) :
    subf
      (subf z (broadcastTo S2000x16 (shapeCast S2000x1
        (maximumf (broadcast S2000 (FloatOps.ofBits (F := Ideal) .f32 0xFF800000#32))
          (multiReduction .maximumf [1] S2000 z 0xFF800000#32 reduces_S2000x16_S2000 hφ hmax))
        shapeCasts_S2000_S2000x1) broadcasts_S2000x1_S2000x16))
      (broadcastTo S2000x16 (log (shapeCast S2000x1
        (multiReduction .add [1] S2000
          (exp (subf z (broadcastTo S2000x16 (shapeCast S2000x1
            (maximumf (broadcast S2000 (FloatOps.ofBits (F := Ideal) .f32 0xFF800000#32))
              (multiReduction .maximumf [1] S2000 z 0xFF800000#32 reduces_S2000x16_S2000 hφ hmax))
            shapeCasts_S2000_S2000x1) broadcasts_S2000x1_S2000x16)))
          0x00000000#32 reduces_S2000x16_S2000 hφ hadd)
        shapeCasts_S2000_S2000x1)) broadcasts_S2000x1_S2000x16) (ix2 p q)
      = Cert.Sage.logSoftmax z (ix2 p q) := by
  have hM : ∀ q' : Fin 16, broadcastTo S2000x16 (shapeCast S2000x1
        (maximumf (broadcast S2000 (FloatOps.ofBits (F := Ideal) .f32 0xFF800000#32))
          (multiReduction .maximumf [1] S2000 z 0xFF800000#32 reduces_S2000x16_S2000 hφ hmax))
        shapeCasts_S2000_S2000x1) broadcasts_S2000x1_S2000x16 (ix2 p q') = Cert.Sage.rowMax z p :=
    fun q' => (column_at _ p q').trans (rowMax_at z hφ hmax p)
  show (z (ix2 p q) - broadcastTo S2000x16 _ _ (ix2 p q)) - broadcastTo S2000x16 (log _) _ (ix2 p q)
      = (z (ix2 p q) - Cert.Sage.rowMax z p) - Ideal.log (∑ k : Fin 16, Ideal.exp (z (ix2 p k) - Cert.Sage.rowMax z p))
  rw [hM q]
  refine congrArg (fun t => (z (ix2 p q) - Cert.Sage.rowMax z p) - t) ?_
  refine (broadcastTo_a1_ab_apply _ _ p q).trans ?_
  refine congrArg Ideal.log ?_
  refine (shapeCast_a_a1_apply _ _ p 0).trans ?_
  refine (Ideal.multiReduction_add_single _ _ reduces_S2000x16_S2000 hφ hadd (ix1 p)).trans ?_
  refine Finset.sum_congr rfl fun (k : Fin 16) _ => ?_
  rw [lift_row]
  show Ideal.exp (z (ix2 p k) - broadcastTo S2000x16 _ _ (ix2 p k)) = _
  rw [hM k]

end Softmax

/-- The body's stored value, as a function of the blocks it loads, is the output layer of those blocks. -/
theorem pay_eq (x0 x1 : Vec Ideal S2000x128 .f32) (x2 x4 : Vec Ideal S128x16 .f32) (x3 : Vec Ideal S16 .f32) :
    k1_pay1 (F := Ideal) x0 x1 x2 x4 x3 = Cert.Sage.output x0 x1 x2 x3 x4 := by
  funext j
  obtain ⟨p, q, rfl⟩ : ∃ (p : Fin 2000) (q : Fin 16), j = ix2 p q := ⟨j 0, j 1, eq_ix2 j⟩
  unfold k1_pay1
  refine (logSoftmax_at _ _ _ _ p q).trans ?_
  refine congrArg (fun z : Cert.Sage.Mat 2000 16 => Cert.Sage.logSoftmax z (ix2 p q)) (funext fun i => ?_)
  obtain ⟨p', q', rfl⟩ : ∃ (p' : Fin 2000) (q' : Fin 16), i = ix2 p' q' := ⟨i 0, i 1, eq_ix2 i⟩
  exact scores_at x0 x1 x2 x4 x3 p' q'

/-! ## From the blocks to the array -/

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The grid has 50 points. -/
theorem grid_points : cfg1.N = 50 := by decide

/-- The printed index maps, decided over the grid: the operand windows and the output window sit at block row `t`,
    block column 0; the weight and bias windows at block 0. -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated-features block at point `t` is row `2000·t + p` of the array. -/
theorem agg_block_at (c : Dev nD) (t : Fin cfg1.N) (p : Fin 2000) (κ : Fin 128) (r : Fin 100000) (hr : r.val = 2000 * t.val + p.val) :
    (iblk1 V c 0 t : Vec Ideal S2000x128 .f32) (ix2 p κ) = (V c main_v38 : Vec Ideal S100000x128 .f32) (ix2 r κ) := by
  obtain ⟨e0, e1, -⟩ := index_facts t
  show V c main_v38 (((cfg1.win 0).blk t).view.emb (ix2 p κ)) = V c main_v38 (ix2 r κ)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * κ.val = κ.val; rw [e1]; omega

/-- Row `p` of the own-features block at point `t` is row `2000·t + p` of the array. -/
theorem own_block_at (c : Dev nD) (t : Fin cfg1.N) (p : Fin 2000) (κ : Fin 128) (r : Fin 100000) (hr : r.val = 2000 * t.val + p.val) :
    (iblk1 V c 1 t : Vec Ideal S2000x128 .f32) (ix2 p κ) = (V c main_v25 : Vec Ideal S100000x128 .f32) (ix2 r κ) := by
  obtain ⟨-, -, e0, e1, -⟩ := index_facts t
  show V c main_v25 (((cfg1.win 1).blk t).view.emb (ix2 p κ)) = V c main_v25 (ix2 r κ)
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * κ.val = κ.val; rw [e1]; omega

/-- The neighbour weights' block is the whole matrix at every point. -/
theorem wl_block (c : Dev nD) (t : Fin cfg1.N) : (iblk1 V c 2 t : Vec Ideal S128x16 .f32) = V c main_arg5 := by
  obtain ⟨-, -, -, -, e0, e1, -⟩ := index_facts t
  funext y
  show V c main_arg5 (((cfg1.win 2).blk t).view.emb y) = V c main_arg5 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 16 + 1 * (y 1).val = (y 1).val; rw [e1]; omega

/-- The bias's block is the whole vector at every point. -/
theorem bias_block (c : Dev nD) (t : Fin cfg1.N) : (iblk1 V c 3 t : Vec Ideal S16 .f32) = V c main_arg6 := by
  obtain ⟨-, -, -, -, -, -, e0, -⟩ := index_facts t
  funext y
  show V c main_arg6 (((cfg1.win 3).blk t).view.emb y) = V c main_arg6 y
  congr 1
  funext a
  apply Fin.ext
  match a with
  | ⟨0, _⟩ => show win1_3.index t (0 : Fin 1) * 16 + 1 * (y 0).val = (y 0).val; rw [e0]; omega

/-- The root weights' block is the whole matrix at every point. -/
theorem wr_block (c : Dev nD) (t : Fin cfg1.N) : (iblk1 V c 4 t : Vec Ideal S128x16 .f32) = V c main_arg7 := by
  obtain ⟨-, -, -, -, -, -, -, e0, e1, -⟩ := index_facts t
  funext y
  show V c main_arg7 (((cfg1.win 4).blk t).view.emb y) = V c main_arg7 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 16 + 1 * (y 1).val = (y 1).val; rw [e1]; omega

/-- What point `t` writes back is block `t` of the output layer of the whole operand arrays. -/
theorem flushed_eq (c : Dev nD) (t : Fin cfg1.N) :
    (dat1 (F := Ideal) V c).flushed 5 t = ((cfg1.win 5).blk t).view.read (Elt Ideal)
      (Cert.Sage.output (V c main_v38) (V c main_v25) (V c main_arg5) (V c main_arg6) (V c main_arg7)) := by
  show (cfg1.win 5).cut (grid1.coords t) ((dat1 V c).after 5 t) = _
  rw [after1_5]
  unfold out1_5
  rw [View.canon_unit_zero zero_off2]
  simp only [View.ld_unit_zero (S := S2000x128) zero_off2, View.ld_unit_zero (S := S128x16) zero_off2, View.ld_unit_zero (S := S16) zero_off1]
  rw [pay_eq]
  funext y
  obtain ⟨p, q, rfl⟩ : ∃ (p : Fin 2000) (q : Fin 16), y = (ix2 p q : S2000x16.Idx) := ⟨y 0, y 1, eq_ix2 (n0 := 2000) (n1 := 16) y⟩
  show Cert.Sage.output (iblk1 V c 0 t) (iblk1 V c 1 t) (iblk1 V c 2 t) (iblk1 V c 3 t) (iblk1 V c 4 t) (ix2 p q)
     = Cert.Sage.output (V c main_v38) (V c main_v25) (V c main_arg5) (V c main_arg6) (V c main_arg7) (((cfg1.win 5).blk t).view.emb (ix2 p q))
  obtain ⟨-, -, -, -, -, -, -, -, -, e0, e1⟩ := index_facts t
  have ht : t.val < 50 := lt_of_lt_of_eq t.isLt grid_points
  have hr : 2000 * t.val + p.val < 100000 := by have := p.isLt; omega
  have hemb : ((cfg1.win 5).blk t).view.emb (ix2 p q) = (ix2 (⟨2000 * t.val + p.val, hr⟩ : Fin 100000) q : S100000x16.Idx) := by
    funext a
    apply Fin.ext
    match a with
    | ⟨0, _⟩ => show win1_5.index t (0 : Fin 2) * 2000 + 1 * p.val = 2000 * t.val + p.val; rw [e0]; omega
    | ⟨1, _⟩ => show win1_5.index t (1 : Fin 2) * 16 + 1 * q.val = q.val; rw [e1]; omega
  rw [hemb, wl_block V c t, bias_block V c t, wr_block V c t]
  exact Cert.Sage.output_rows (V c main_v38) (V c main_v25) (iblk1 V c 0 t) (iblk1 V c 1 t) (V c main_arg5) (V c main_arg6) (V c main_arg7)
    ⟨2000 * t.val + p.val, hr⟩ p (fun κ => agg_block_at V c t p κ _ rfl) (fun κ => own_block_at V c t p κ _ rfl) q

/-- An index of the output array is in point `t`'s block iff each coordinate is in the block's range on its axis. -/
theorem mem_block (t : Fin cfg1.N) (i : S100000x16.Idx) :
    i ∈ ((cfg1.win 5).blk t).view.set ↔ ∀ a : Fin 2, win1_5.index t a * S2000x16.size a ≤ (i a).val ∧ (i a).val < win1_5.index t a * S2000x16.size a + S2000x16.size a := by
  show i ∈ ((View.whole main_v39).slice (win1_5.rect t)).set ↔ _
  rw [View.set_slice_whole, Rect.mem_set_unit]
  exact Iff.rfl

/-- Every row of the output lies in some point's block: row `r` in that of point `r / 2000`. -/
theorem covered (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : (i 0).val / 2000 < cfg1.N := by rw [grid_points]; omega
  refine ⟨⟨(i 0).val / 2000, hN⟩, flush1_5 _, ?_⟩
  obtain ⟨-, -, -, -, -, -, -, -, -, e0, e1⟩ := index_facts ⟨(i 0).val / 2000, hN⟩
  rw [mem_block]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hN⟩ (1 : Fin 2) * 16 ≤ (i 1).val ∧ (i 1).val < win1_5.index ⟨(i 0).val / 2000, hN⟩ (1 : Fin 2) * 16 + 16
    rw [e1]; omega

/-- The region's output array after all its grid points, whatever the region finds in its operands' arrays (`V`):
    the output layer of the whole operand arrays. -/
theorem arr (c : Dev nD) :
    (dat1 (F := Ideal) V c).arrAt 5 cfg1.N
      = Cert.Sage.output (V c main_v38) (V c main_v25) (V c main_arg5) (V c main_arg6) (V c main_arg7) :=
  (dat1 V c).arrAt_eq_of_cover 5
    (Cert.Sage.output (V c main_v38) (V c main_v25) (V c main_arg5) (V c main_arg6) (V c main_arg7))
    (fun t _ => flushed_eq V c t) covered

end Cert.KernelIdeal.R1

end
-- ==== Proof.KernelValue.lean ====
/-
  The kernel program's result as a function of its arguments.

  Walking the program back from its result: the second region leaves in the result array the output layer of the
  arrays it finds (its aggregated operand, the hidden features, the second layer's weights and bias); what it finds
  is what the second host stretch computed from what the first region left — the weighted neighbour sum of the hidden
  features — and the hidden features themselves, untouched; the first region leaves the hidden layer of what the
  first host stretch computed — the weighted neighbour sum of the node features — and of the node features and the
  first layer's weights and bias, which nothing wrote. The edge rows and the weight `1 / max(deg, 1)` are computed once,
  before the first region, and are read again, unchanged, after it.
-/
import proofs.«103910_j56891136803141_1_alg».proof.Proof.KernelHost
import proofs.«103910_j56891136803141_1_alg».proof.Proof.Region0
import proofs.«103910_j56891136803141_1_alg».proof.Proof.Region1
import proofs.«103910_j56891136803141_1_alg».proof.Proof.SageSpec

set_option maxRecDepth 16384

noncomputable section

namespace Cert.KernelIdeal.KValue

open Cert.KernelIdeal Cert.KernelIdeal.Gen Cert.KernelIdeal.Hst
open Idealize.ShloMosaic Idealize.ShloMosaic.TcCoe Idealize.SL.Sem Idealize.ShloMosaic.StableHlo

variable (m : (ℓ : Loc nD τ sig) → Buf (Elt Ideal) ℓ) (ρ : Dev nD → PrngReg)

/-- The hidden features, as a function of the arguments. -/
def hid (c : Dev nD) : (⟨S100000x128, .f32⟩ : BufTy).Contents (Elt Ideal) :=
  Cert.Sage.hidden
    (aggMul (F := Ideal) (m ((c : Thread nD τ).loc main_arg0)) (src (m ((c : Thread nD τ).loc main_arg1))) (dst (m ((c : Thread nD τ).loc main_arg1))) (rcp (dst (m ((c : Thread nD τ).loc main_arg1)))))
    (m ((c : Thread nD τ).loc main_arg0)) (m ((c : Thread nD τ).loc main_arg2)) (m ((c : Thread nD τ).loc main_arg3)) (m ((c : Thread nD τ).loc main_arg4))

/-! ## What the first region finds, and leaves -/

theorem entry0_agg (c : Dev nD) : V1 m ρ c main_v24
    = aggMul (F := Ideal) (m ((c : Thread nD τ).loc main_arg0)) (src (m ((c : Thread nD τ).loc main_arg1))) (dst (m ((c : Thread nD τ).loc main_arg1))) (rcp (dst (m ((c : Thread nD τ).loc main_arg1)))) :=
  host0_agg (W0 m ρ c)
theorem entry0_arg0 (c : Dev nD) : V1 m ρ c main_arg0 = (m ((c : Thread nD τ).loc main_arg0)) := host0_arg0 (W0 m ρ c)
theorem entry0_arg2 (c : Dev nD) : V1 m ρ c main_arg2 = (m ((c : Thread nD τ).loc main_arg2)) := host0_arg2 (W0 m ρ c)
theorem entry0_arg3 (c : Dev nD) : V1 m ρ c main_arg3 = (m ((c : Thread nD τ).loc main_arg3)) := host0_arg3 (W0 m ρ c)
theorem entry0_arg4 (c : Dev nD) : V1 m ρ c main_arg4 = (m ((c : Thread nD τ).loc main_arg4)) := host0_arg4 (W0 m ρ c)

/-- After the first region its output array holds the hidden features. -/
theorem exit0_hid (c : Dev nD) : W2 m ρ c (Proc.devRef .tc main_v25) = hid m c := by
  refine (W2_arr m ρ c 5).trans ((Cert.KernelIdeal.R0.arr (V1 m ρ) c).trans ?_)
  rw [entry0_agg, entry0_arg0, entry0_arg2, entry0_arg3, entry0_arg4]
  rfl

/-- The edge rows and the weight pass the first region unchanged. -/
theorem exit0_src (c : Dev nD) : W2 m ρ c (Proc.devRef .tc main_v1) = src (F := Ideal) (m ((c : Thread nD τ).loc main_arg1)) :=
  (W2_of_ne m ρ c main_v1 (by decide)).trans (host0_src (W0 m ρ c))
theorem exit0_dst (c : Dev nD) : W2 m ρ c (Proc.devRef .tc main_v3) = dst (F := Ideal) (m ((c : Thread nD τ).loc main_arg1)) :=
  (W2_of_ne m ρ c main_v3 (by decide)).trans (host0_dst (W0 m ρ c))
theorem exit0_rcp (c : Dev nD) : W2 m ρ c (Proc.devRef .tc main_v11) = rcp (F := Ideal) (dst (m ((c : Thread nD τ).loc main_arg1))) :=
  (W2_of_ne m ρ c main_v11 (by decide)).trans (host0_rcp (W0 m ρ c))
theorem exit0_arg5 (c : Dev nD) : W2 m ρ c (Proc.devRef .tc main_arg5) = (m ((c : Thread nD τ).loc main_arg5)) :=
  (W2_of_ne m ρ c main_arg5 (by decide)).trans (host0_arg5 (W0 m ρ c))
theorem exit0_arg6 (c : Dev nD) : W2 m ρ c (Proc.devRef .tc main_arg6) = (m ((c : Thread nD τ).loc main_arg6)) :=
  (W2_of_ne m ρ c main_arg6 (by decide)).trans (host0_arg6 (W0 m ρ c))
theorem exit0_arg7 (c : Dev nD) : W2 m ρ c (Proc.devRef .tc main_arg7) = (m ((c : Thread nD τ).loc main_arg7)) :=
  (W2_of_ne m ρ c main_arg7 (by decide)).trans (host0_arg7 (W0 m ρ c))

/-! ## What the second region finds -/

theorem entry1_agg (c : Dev nD) : V3 m ρ c main_v38
    = aggMul (F := Ideal) (hid m c) (src (m ((c : Thread nD τ).loc main_arg1))) (dst (m ((c : Thread nD τ).loc main_arg1))) (rcp (dst (m ((c : Thread nD τ).loc main_arg1)))) := by
  refine (host1_agg (W2 m ρ c)).trans ?_
  rw [exit0_hid, exit0_src, exit0_dst, exit0_rcp]
theorem entry1_hid (c : Dev nD) : V3 m ρ c main_v25 = hid m c := (host1_hid (W2 m ρ c)).trans (exit0_hid m ρ c)
theorem entry1_arg5 (c : Dev nD) : V3 m ρ c main_arg5 = (m ((c : Thread nD τ).loc main_arg5)) := (host1_arg5 (W2 m ρ c)).trans (exit0_arg5 m ρ c)
theorem entry1_arg6 (c : Dev nD) : V3 m ρ c main_arg6 = (m ((c : Thread nD τ).loc main_arg6)) := (host1_arg6 (W2 m ρ c)).trans (exit0_arg6 m ρ c)
theorem entry1_arg7 (c : Dev nD) : V3 m ρ c main_arg7 = (m ((c : Thread nD τ).loc main_arg7)) := (host1_arg7 (W2 m ρ c)).trans (exit0_arg7 m ρ c)

/-! ## The result -/

/-- After the second region the result array holds the output layer of the weighted neighbour sum of the hidden
    features and of the hidden features. -/
theorem result (c : Dev nD) : W4 m ρ c (Proc.devRef .tc main_v39)
    = Cert.Sage.output
        (aggMul (F := Ideal) (hid m c) (src (m ((c : Thread nD τ).loc main_arg1))) (dst (m ((c : Thread nD τ).loc main_arg1))) (rcp (dst (m ((c : Thread nD τ).loc main_arg1)))))
        (hid m c) (m ((c : Thread nD τ).loc main_arg5)) (m ((c : Thread nD τ).loc main_arg6)) (m ((c : Thread nD τ).loc main_arg7)) := by
  refine (W4_arr m ρ c 5).trans ((Cert.KernelIdeal.R1.arr (V3 m ρ) c).trans ?_)
  rw [entry1_agg, entry1_hid, entry1_arg5, entry1_arg6, entry1_arg7]

end Cert.KernelIdeal.KValue

end
-- ==== Proof.RefStages.lean ====
/-
  The reference program's run, read stretch by stretch.

  The reference's 84 host operations fall into five stretches: the first layer's mean aggregation (A), the first
  layer's dense part and its clamp at zero (B), the second layer's mean aggregation of the hidden features (C), the
  second layer's dense part, the class scores (D), and the logarithm of their softmax (E). After each stretch the buffers the later stretches
  read hold the corresponding stage functions of the ARGUMENTS (the stages `val_…` of the read-at-an-index module):
  stretch by stretch, each stretch run from contents already known, so that no step ever compares the whole composed
  term of the program at once.
-/
import proofs.«103910_j56891136803141_1_alg».proof.Proof.RefRead
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Stretch A: the edge list's rows, the gather and the two accumulating scatters, the count, the quotient. -/
def opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- Stretch B: the two products, the bias, the clamp at zero. -/
def opsB : List (HloOp τ sig (Elt F)) :=
  [ binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- Stretch C: the same aggregation, of the hidden features. -/
def opsC : List (HloOp τ sig (Elt F)) :=
  [ nullary main_c_4 (constantI S_ 32 0#32),
    unary main_c_4 main_v30 (broadcastInDim S600000 ![] bcast_S_S600000 : (⟨S_, .i32⟩ : BufTy).Contents (Elt F) → (⟨S600000, .i32⟩ : BufTy).Contents (Elt F)),
    binary main_v1 main_v30 main_v31 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v32 (broadcastInDim S600000 ![] bcast_S_S600000 : (⟨S_, .i32⟩ : BufTy).Contents (Elt F) → (⟨S600000, .i32⟩ : BufTy).Contents (Elt F)),
    binary main_v1 main_v32 main_v33 (addi : (⟨S600000, .i32⟩ : BufTy).Contents (Elt F) → (⟨S600000, .i32⟩ : BufTy).Contents (Elt F) → (⟨S600000, .i32⟩ : BufTy).Contents (Elt F)),
    ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v34 main_v35 (broadcastInDim S600000x1 ![0] bcast_S600000_S600000x1_0 : (⟨S600000, .i32⟩ : BufTy).Contents (Elt F) → (⟨S600000x1, .i32⟩ : BufTy).Contents (Elt F)),
    binary main_v29 main_v35 main_v36 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_7 (constant S_ .f32 0x3F800000#32),
    unary main_cst_7 main_v40 (broadcastInDim S600000 ![] bcast_S_S600000 : (⟨S_, .f32⟩ : BufTy).Contents (Elt F) → (⟨S600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S600000x1 ![0] bcast_S600000_S600000x1_0 : (⟨S600000, .i32⟩ : BufTy).Contents (Elt F) → (⟨S600000x1, .i32⟩ : BufTy).Contents (Elt F)),
    ternary main_v41 main_v42 main_v40 main_v43 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)) ]

/-- Stretch D: the second layer's two products and its bias: the class scores. -/
def opsD : List (HloOp τ sig (Elt F)) :=
  [ binary main_v48 main_arg5 main_v49 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg6 main_v50 (broadcastInDim S1x16 ![1] bcast_S16_S1x16_1 : (⟨S16, .f32⟩ : BufTy).Contents (Elt F) → (⟨S1x16, .f32⟩ : BufTy).Contents (Elt F)),
    unary main_v50 main_v51 (broadcastInDim S100000x16 ![0, 1] bcast_S1x16_S100000x16_0_1 : (⟨S1x16, .f32⟩ : BufTy).Contents (Elt F) → (⟨S100000x16, .f32⟩ : BufTy).Contents (Elt F)),
    binary main_v49 main_v51 main_v52 (addf : (⟨S100000x16, .f32⟩ : BufTy).Contents (Elt F) → (⟨S100000x16, .f32⟩ : BufTy).Contents (Elt F) → (⟨S100000x16, .f32⟩ : BufTy).Contents (Elt F)),
    binary main_v29 main_arg7 main_v53 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v52 main_v53 main_v54 (addf : (⟨S100000x16, .f32⟩ : BufTy).Contents (Elt F) → (⟨S100000x16, .f32⟩ : BufTy).Contents (Elt F) → (⟨S100000x16, .f32⟩ : BufTy).Contents (Elt F)) ]

/-- Stretch E: the logarithm of the softmax of the class scores. -/
def opsE : List (HloOp τ sig (Elt F)) :=
  [ TRef.nullary (TRef.of (T := ⟨S_, .f32⟩) main_call1_cst) (constant S_ .f32 0xFF800000#32),
    TRef.binary (TRef.of (T := ⟨S100000x16, .f32⟩) main_v54) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v54) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v55) subf ]

set_option maxRecDepth 65536 in
/-- The program's operations are the five stretches in order. -/
theorem ops_split : (ops : List (HloOp τ sig (Elt F))) = (((opsA ++ opsB) ++ opsC) ++ opsD) ++ opsE := rfl

variable (W : Valuation τ sig (Elt F))

/-! ## After stretch A -/

theorem stA_v22 : after (opsA (F := F)) W (Proc.devRef .tc main_v22) = val_main_v22 (F := F) (W (Proc.devRef .tc main_arg0)) (W (Proc.devRef .tc main_arg1)) := by
  unfold opsA; after_results_simp <;> rfl
theorem stA_v1 : after (opsA (F := F)) W (Proc.devRef .tc main_v1) = val_main_v1 (F := F) (W (Proc.devRef .tc main_arg1)) := by
  unfold opsA; after_results_simp <;> rfl
theorem stA_v3 : after (opsA (F := F)) W (Proc.devRef .tc main_v3) = val_main_v3 (F := F) (W (Proc.devRef .tc main_arg1)) := by
  unfold opsA; after_results_simp <;> rfl
theorem keepA_arg0 : after (opsA (F := F)) W (Proc.devRef .tc main_arg0) = W (Proc.devRef .tc main_arg0) := by
  unfold opsA; after_results_simp <;> rfl
theorem keepA_arg2 : after (opsA (F := F)) W (Proc.devRef .tc main_arg2) = W (Proc.devRef .tc main_arg2) := by
  unfold opsA; after_results_simp <;> rfl
theorem keepA_arg3 : after (opsA (F := F)) W (Proc.devRef .tc main_arg3) = W (Proc.devRef .tc main_arg3) := by
  unfold opsA; after_results_simp <;> rfl
theorem keepA_arg4 : after (opsA (F := F)) W (Proc.devRef .tc main_arg4) = W (Proc.devRef .tc main_arg4) := by
  unfold opsA; after_results_simp <;> rfl
theorem keepA_arg5 : after (opsA (F := F)) W (Proc.devRef .tc main_arg5) = W (Proc.devRef .tc main_arg5) := by
  unfold opsA; after_results_simp <;> rfl
theorem keepA_arg6 : after (opsA (F := F)) W (Proc.devRef .tc main_arg6) = W (Proc.devRef .tc main_arg6) := by
  unfold opsA; after_results_simp <;> rfl
theorem keepA_arg7 : after (opsA (F := F)) W (Proc.devRef .tc main_arg7) = W (Proc.devRef .tc main_arg7) := by
  unfold opsA; after_results_simp <;> rfl

/-! ## After stretches A, B -/

theorem stB_v29 : after (opsA (F := F) ++ opsB) W (Proc.devRef .tc main_v29) = val_main_v29 (F := F) (W (Proc.devRef .tc main_arg0)) (W (Proc.devRef .tc main_arg1)) (W (Proc.devRef .tc main_arg2)) (W (Proc.devRef .tc main_arg3)) (W (Proc.devRef .tc main_arg4)) := by
  have h22 := stA_v22 W; have h0 := keepA_arg0 W; have h2 := keepA_arg2 W; have h3 := keepA_arg3 W; have h4 := keepA_arg4 W
  rw [after_append]
  generalize after (opsA (F := F)) W = V at *
  unfold opsB; after_results_simp <;> (try simp only [TRef.ofBuf, TRef.toBuf, cast_eq])
  rw [h22, h0, h2, h3, h4]; rfl
theorem stB_v1 : after (opsA (F := F) ++ opsB) W (Proc.devRef .tc main_v1) = val_main_v1 (F := F) (W (Proc.devRef .tc main_arg1)) := by
  have h := stA_v1 W
  rw [after_append]
  generalize after (opsA (F := F)) W = V at *
  unfold opsB; after_results_simp <;> (try simp only [TRef.ofBuf, TRef.toBuf, cast_eq])
  exact h
theorem stB_v3 : after (opsA (F := F) ++ opsB) W (Proc.devRef .tc main_v3) = val_main_v3 (F := F) (W (Proc.devRef .tc main_arg1)) := by
  have h := stA_v3 W
  rw [after_append]
  generalize after (opsA (F := F)) W = V at *
  unfold opsB; after_results_simp <;> (try simp only [TRef.ofBuf, TRef.toBuf, cast_eq])
  exact h
theorem keepB_arg5 : after (opsA (F := F) ++ opsB) W (Proc.devRef .tc main_arg5) = W (Proc.devRef .tc main_arg5) := by
  have h := keepA_arg5 W
  rw [after_append]
  generalize after (opsA (F := F)) W = V at *
  unfold opsB; after_results_simp <;> (try simp only [TRef.ofBuf, TRef.toBuf, cast_eq])
  exact h
theorem keepB_arg6 : after (opsA (F := F) ++ opsB) W (Proc.devRef .tc main_arg6) = W (Proc.devRef .tc main_arg6) := by
  have h := keepA_arg6 W
  rw [after_append]
  generalize after (opsA (F := F)) W = V at *
  unfold opsB; after_results_simp <;> (try simp only [TRef.ofBuf, TRef.toBuf, cast_eq])
  exact h
theorem keepB_arg7 : after (opsA (F := F) ++ opsB) W (Proc.devRef .tc main_arg7) = W (Proc.devRef .tc main_arg7) := by
  have h := keepA_arg7 W
  rw [after_append]
  generalize after (opsA (F := F)) W = V at *
  unfold opsB; after_results_simp <;> (try simp only [TRef.ofBuf, TRef.toBuf, cast_eq])
  exact h

/-! ## After stretches A, B, C -/

theorem stC_v48 : after ((opsA (F := F) ++ opsB) ++ opsC) W (Proc.devRef .tc main_v48) = val_main_v48 (F := F) (W (Proc.devRef .tc main_arg0)) (W (Proc.devRef .tc main_arg1)) (W (Proc.devRef .tc main_arg2)) (W (Proc.devRef .tc main_arg3)) (W (Proc.devRef .tc main_arg4)) := by
  have h29 := stB_v29 W; have h1 := stB_v1 W; have h3 := stB_v3 W
  rw [after_append]
  generalize after (opsA (F := F) ++ opsB) W = V at *
  unfold opsC; after_results_simp
  rw [h29, h1, h3]; rfl
theorem stC_v29 : after ((opsA (F := F) ++ opsB) ++ opsC) W (Proc.devRef .tc main_v29) = val_main_v29 (F := F) (W (Proc.devRef .tc main_arg0)) (W (Proc.devRef .tc main_arg1)) (W (Proc.devRef .tc main_arg2)) (W (Proc.devRef .tc main_arg3)) (W (Proc.devRef .tc main_arg4)) := by
  have h := stB_v29 W
  rw [after_append]
  generalize after (opsA (F := F) ++ opsB) W = V at *
  unfold opsC; after_results_simp
  exact h
theorem keepC_arg5 : after ((opsA (F := F) ++ opsB) ++ opsC) W (Proc.devRef .tc main_arg5) = W (Proc.devRef .tc main_arg5) := by
  have h := keepB_arg5 W
  rw [after_append]
  generalize after (opsA (F := F) ++ opsB) W = V at *
  unfold opsC; after_results_simp
  exact h
theorem keepC_arg6 : after ((opsA (F := F) ++ opsB) ++ opsC) W (Proc.devRef .tc main_arg6) = W (Proc.devRef .tc main_arg6) := by
  have h := keepB_arg6 W
  rw [after_append]
  generalize after (opsA (F := F) ++ opsB) W = V at *
  unfold opsC; after_results_simp
  exact h
theorem keepC_arg7 : after ((opsA (F := F) ++ opsB) ++ opsC) W (Proc.devRef .tc main_arg7) = W (Proc.devRef .tc main_arg7) := by
  have h := keepB_arg7 W
  rw [after_append]
  generalize after (opsA (F := F) ++ opsB) W = V at *
  unfold opsC; after_results_simp
  exact h

/-! ## After stretches A to D: the class scores -/

theorem stD_v54 : after (((opsA (F := F) ++ opsB) ++ opsC) ++ opsD) W (Proc.devRef .tc main_v54) = val_main_v54 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  have h48 := stC_v48 W; have h29 := stC_v29 W; have h5 := keepC_arg5 W; have h6 := keepC_arg6 W; have h7 := keepC_arg7 W
  rw [after_append]
  generalize after ((opsA (F := F) ++ opsB) ++ opsC) W = V at *
  unfold opsD; after_results_simp
  rw [h48, h29, h5, h6, h7]
  unfold val_main_v54 val_main_v53 val_main_v52 val_main_v51 val_main_v50 val_main_v49
  rfl

/-! ## The last stretch: the operations of the inlined logarithm-of-softmax

These fifteen operations are spelt over typed references: each moves its function's values between the tensor type
and the buffer's own type, an identity. Written and read back at one reference the two moves cancel
(`ofBuf_toBuf`, for any typed reference); the stretch is therefore read through the scores' and the result's typed
references, so that every move in the composed term belongs to such a pair. -/

/-- Writing a value to a buffer at its tensor type and reading it back at that type gives the value: for any typed
    reference, whatever its buffer. -/
theorem ofBuf_toBuf {T : BufTy} (t : TRef sig T) (w : T.Contents (Elt F)) :
    TRef.ofBuf (Val := Elt F) t (TRef.toBuf (Val := Elt F) t w) = w := by
  obtain ⟨r, rfl, _, _⟩ := t
  rfl

/-- Reading the class-scores buffer at its tensor type is reading it. -/
theorem read_v54 (w : (⟨S100000x16, .f32⟩ : BufTy).Contents (Elt F)) : TRef.ofBuf (Val := Elt F) (TRef.of (T := ⟨S100000x16, .f32⟩) main_v54 : TRef sig ⟨S100000x16, .f32⟩) w = w := rfl

/-- Reading the result buffer at its tensor type is reading it. -/
theorem read_v55 (w : (⟨S100000x16, .f32⟩ : BufTy).Contents (Elt F)) : TRef.ofBuf (Val := Elt F) (TRef.of (T := ⟨S100000x16, .f32⟩) main_v55 : TRef sig ⟨S100000x16, .f32⟩) w = w := rfl

/-- The last stretch, from any contents whose class-scores buffer, read at its tensor type, holds the scores stage:
    the result buffer, read at its tensor type, holds the last stage. -/
theorem stretchE (V : Valuation τ sig (Elt F)) (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x16, .f32⟩ : BufTy).Contents (Elt F)) (x6 : (⟨S16, .f32⟩ : BufTy).Contents (Elt F)) (x7 : (⟨S128x16, .f32⟩ : BufTy).Contents (Elt F))
    (h54 : TRef.ofBuf (Val := Elt F) (TRef.of (T := ⟨S100000x16, .f32⟩) main_v54 : TRef sig ⟨S100000x16, .f32⟩) (V (Proc.devRef .tc main_v54)) = val_main_v54 (F := F) x0 x1 x2 x3 x4 x5 x6 x7) :
    TRef.ofBuf (Val := Elt F) (TRef.of (T := ⟨S100000x16, .f32⟩) main_v55 : TRef sig ⟨S100000x16, .f32⟩) (after (opsE (F := F)) V (Proc.devRef .tc main_v55)) = val_main_v55 (F := F) x0 x1 x2 x3 x4 x5 x6 x7 := by
  unfold opsE
  after_results_simp
  rw [h54]
  simp only [ofBuf_toBuf]
  unfold val_main_v55 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0
    val_main_call1_cst_1
  rfl

/-! ## After all five -/

theorem stE_v55 : after ((((opsA (F := F) ++ opsB) ++ opsC) ++ opsD) ++ opsE) W (Proc.devRef .tc main_v55) = val_main_v55 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  have h54 := stD_v54 W
  rw [after_append]
  generalize after (((opsA (F := F) ++ opsB) ++ opsC) ++ opsD) W = V at *
  have h54' : TRef.ofBuf (Val := Elt F) (TRef.of (T := ⟨S100000x16, .f32⟩) main_v54 : TRef sig ⟨S100000x16, .f32⟩) (V (Proc.devRef .tc main_v54)) = val_main_v54 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
    (congrArg (TRef.ofBuf (Val := Elt F) (TRef.of (T := ⟨S100000x16, .f32⟩) main_v54 : TRef sig ⟨S100000x16, .f32⟩)) h54).trans (read_v54 _)
  exact (read_v55 (after (opsE (F := F)) V (Proc.devRef .tc main_v55))).symm.trans (stretchE V _ _ _ _ _ _ _ _ h54')

/-- The result buffer after the whole program: the last stage, a function of the eight arguments. -/
theorem result_stage : after (ops (F := F)) W (Proc.devRef .tc main_v55) = val_main_v55 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split]; exact stE_v55 W

/-! ## No operation writes an argument -/

theorem keep_arg0 : after (ops (F := F)) W (Proc.devRef .tc main_arg0) = W (Proc.devRef .tc main_arg0) := by
  after_results_simp <;> rfl
theorem keep_arg1 : after (ops (F := F)) W (Proc.devRef .tc main_arg1) = W (Proc.devRef .tc main_arg1) := by
  after_results_simp <;> rfl
theorem keep_arg2 : after (ops (F := F)) W (Proc.devRef .tc main_arg2) = W (Proc.devRef .tc main_arg2) := by
  after_results_simp <;> rfl
theorem keep_arg3 : after (ops (F := F)) W (Proc.devRef .tc main_arg3) = W (Proc.devRef .tc main_arg3) := by
  after_results_simp <;> rfl
theorem keep_arg4 : after (ops (F := F)) W (Proc.devRef .tc main_arg4) = W (Proc.devRef .tc main_arg4) := by
  after_results_simp <;> rfl
theorem keep_arg5 : after (ops (F := F)) W (Proc.devRef .tc main_arg5) = W (Proc.devRef .tc main_arg5) := by
  after_results_simp <;> rfl
theorem keep_arg6 : after (ops (F := F)) W (Proc.devRef .tc main_arg6) = W (Proc.devRef .tc main_arg6) := by
  after_results_simp <;> rfl
theorem keep_arg7 : after (ops (F := F)) W (Proc.devRef .tc main_arg7) = W (Proc.devRef .tc main_arg7) := by
  after_results_simp <;> rfl

end Cert.ReferenceIdeal.Stages

end
-- ==== Proof.RefValue.lean ====
/-
  The reference program's stages are the specification.

  Read at the extended reals, index by index: the reference's first layer (its two products, the bias, the clamp) is
  `hidden` of its mean aggregate and its node features; its second layer's sum of products and bias is `scores` of the
  second mean aggregate and the hidden features; and its logarithm of the softmax — a row maximum folded from -∞ and
  taken once more against -∞, the shifted scores, the sum of their exponentials from zero, its logarithm, the
  difference — is `logSoftmax` of those scores.
-/
import proofs.«103910_j56891136803141_1_alg».proof.Proof.RefRead
import proofs.«103910_j56891136803141_1_alg».proof.Proof.SageSpec
import Idealize.ShloMosaic.PureOps.Reduce

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-! ## Index bookkeeping: the composed index functions of the stages at a split index -/

theorem lidx23 (p : Fin 100000) (q : Fin 128) (k : Fin 128) : lidx_main_v23 (ix2 p q) k = ix2 p k :=
  funext fun a => Fin.ext (by match a with | ⟨0, _⟩ => rfl | ⟨1, _⟩ => rfl)
theorem ridx23 (p : Fin 100000) (q : Fin 128) (k : Fin 128) : ridx_main_v23 (ix2 p q) k = ix2 k q :=
  funext fun a => Fin.ext (by match a with | ⟨0, _⟩ => rfl | ⟨1, _⟩ => rfl)
theorem lidx27 (p : Fin 100000) (q : Fin 128) (k : Fin 128) : lidx_main_v27 (ix2 p q) k = ix2 p k :=
  funext fun a => Fin.ext (by match a with | ⟨0, _⟩ => rfl | ⟨1, _⟩ => rfl)
theorem ridx27 (p : Fin 100000) (q : Fin 128) (k : Fin 128) : ridx_main_v27 (ix2 p q) k = ix2 k q :=
  funext fun a => Fin.ext (by match a with | ⟨0, _⟩ => rfl | ⟨1, _⟩ => rfl)
theorem bidx25 (p : Fin 100000) (q : Fin 128) : idx_main_v24 (idx_main_v25 (ix2 p q)) = ix1 q :=
  funext fun a => Fin.ext (by match a with | ⟨0, _⟩ => rfl)
theorem lidx49 (p : Fin 100000) (q : Fin 16) (k : Fin 128) : lidx_main_v49 (ix2 p q) k = ix2 p k :=
  funext fun a => Fin.ext (by match a with | ⟨0, _⟩ => rfl | ⟨1, _⟩ => rfl)
theorem ridx49 (p : Fin 100000) (q : Fin 16) (k : Fin 128) : ridx_main_v49 (ix2 p q) k = ix2 k q :=
  funext fun a => Fin.ext (by match a with | ⟨0, _⟩ => rfl | ⟨1, _⟩ => rfl)
theorem lidx53 (p : Fin 100000) (q : Fin 16) (k : Fin 128) : lidx_main_v53 (ix2 p q) k = ix2 p k :=
  funext fun a => Fin.ext (by match a with | ⟨0, _⟩ => rfl | ⟨1, _⟩ => rfl)
theorem ridx53 (p : Fin 100000) (q : Fin 16) (k : Fin 128) : ridx_main_v53 (ix2 p q) k = ix2 k q :=
  funext fun a => Fin.ext (by match a with | ⟨0, _⟩ => rfl | ⟨1, _⟩ => rfl)
theorem bidx51 (p : Fin 100000) (q : Fin 16) : idx_main_v50 (idx_main_v51 (ix2 p q)) = ix1 q :=
  funext fun a => Fin.ext (by match a with | ⟨0, _⟩ => rfl)

/-! ## The first layer -/

/-- The reference's hidden features: `hidden` of its mean aggregate (the quotient stage) and the node features. -/
theorem hidden_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Cert.Sage.hidden (val_main_v22 (F := Ideal) x0 x1) x0 x2 x3 x4 := by
  funext i
  obtain ⟨p, q, rfl⟩ : ∃ (p : Fin 100000) (q : Fin 128), i = ix2 p q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  simp only [lidx23, ridx23, lidx27, ridx27, bidx25]
  rfl

/-! ## The second layer's scores -/

/-- The reference's class scores: `scores` of the second mean aggregate and the hidden features. -/
theorem scores_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal)) :
    val_main_v54 (F := Ideal) x0 x1 x2 x3 x4 x5 x6 x7
      = Cert.Sage.scores (val_main_v48 (F := Ideal) x0 x1 x2 x3 x4) (val_main_v29 (F := Ideal) x0 x1 x2 x3 x4) x5 x6 x7 := by
  funext i
  obtain ⟨p, q, rfl⟩ : ∃ (p : Fin 100000) (q : Fin 16), i = ix2 p q := ⟨i 0, i 1, eq_ix2 i⟩
  rw [val_main_v54_apply, val_main_v52_apply, val_main_v49_apply, val_main_v53_apply, val_main_v51_apply, val_main_v50_apply]
  simp only [lidx49, ridx49, lidx53, ridx53, bidx51]
  rfl

/-! ## The logarithm of the softmax -/

/-- A row's maximum as the reference takes it: the host's max-reduce over the classes from -∞, then once more against -∞. -/
theorem rowMax_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal)) (p : Fin 100000) :
    val_main_call1_v2 (F := Ideal) x0 x1 x2 x3 x4 x5 x6 x7 (ix1 p) = Cert.Sage.rowMax (val_main_v54 (F := Ideal) x0 x1 x2 x3 x4 x5 x6 x7) p := by
  rw [val_main_call1_v2_apply, val_main_call1_v1_apply, val_main_call1_cst_0_apply]
  unfold val_main_call1_v0
  generalize val_main_v54 (F := Ideal) x0 x1 x2 x3 x4 x5 x6 x7 = z
  have hR : Shape.Reduces S100000x16 [1] S100000 := by decide
  have hfold := Host.reduce_eq_fold_single (FloatOps.maximumf (F := Ideal) (φ := .f32)) z (val_main_call1_cst (F := Ideal))
    reducesTo_S100000x16_S100000_d1 hR h_S_ (ix1 p)
  refine (congrArg (FloatOps.maximumf (F := Ideal) (φ := .f32) (FloatOps.ofBits (F := Ideal) .f32 0xFF800000#32)) hfold).trans ?_
  have hl : (z ∘ hR.lift (ix1 p)) = fun k : Fin 16 => z (ix2 p k) :=
    funext fun k => congrArg z (funext fun a => Fin.ext (by match a with | ⟨0, _⟩ => rfl | ⟨1, _⟩ => rfl))
  rw [hl]
  rfl

/-- The reference's result: the logarithm of the softmax of its class scores. -/
theorem logSoftmax_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal)) :
    val_main_v55 (F := Ideal) x0 x1 x2 x3 x4 x5 x6 x7 = Cert.Sage.logSoftmax (val_main_v54 (F := Ideal) x0 x1 x2 x3 x4 x5 x6 x7) := by
  funext i
  obtain ⟨p, q, rfl⟩ : ∃ (p : Fin 100000) (q : Fin 16), i = ix2 p q := ⟨i 0, i 1, eq_ix2 i⟩
  have hm : ∀ k : Fin 16, val_main_call1_v5 (F := Ideal) x0 x1 x2 x3 x4 x5 x6 x7 (ix2 p k)
      = val_main_v54 (F := Ideal) x0 x1 x2 x3 x4 x5 x6 x7 (ix2 p k) - Cert.Sage.rowMax (val_main_v54 (F := Ideal) x0 x1 x2 x3 x4 x5 x6 x7) p := by
    intro k
    rw [val_main_call1_v5_apply, val_main_call1_v4_apply, val_main_call1_v3_apply]
    have e : idx_main_call1_v3 (idx_main_call1_v4 (ix2 p k)) = ix1 p :=
      funext fun a => Fin.ext (by match a with | ⟨0, _⟩ => rfl)
    rw [e, rowMax_eq]
    rfl
  rw [val_main_v55_apply, val_main_call1_v10_apply, val_main_call1_v9_apply, val_main_call1_v8_apply, val_main_call1_v7_apply,
    val_main_call1_cst_1_apply]
  have e8 : idx_main_call1_v8 (idx_main_call1_v10 (ix2 p q)) = ix1 p :=
    funext fun a => Fin.ext (by match a with | ⟨0, _⟩ => rfl)
  have e7 : ∀ k : Fin 16, idx_main_call1_v7 (ix1 p) k = ix2 p k := fun k =>
    funext fun a => Fin.ext (by match a with | ⟨0, _⟩ => rfl | ⟨1, _⟩ => rfl)
  rw [e8]
  simp only [e7, val_main_call1_v6_apply, hm]
  generalize val_main_v54 (F := Ideal) x0 x1 x2 x3 x4 x5 x6 x7 = z
  rw [Ideal.ofBits_def, Ideal.ofBits_zero_f32, zero_add]
  rfl

/-- The reference's result as the specification's output layer. -/
theorem output_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal)) :
    val_main_v55 (F := Ideal) x0 x1 x2 x3 x4 x5 x6 x7
      = Cert.Sage.output (val_main_v48 (F := Ideal) x0 x1 x2 x3 x4) (val_main_v29 (F := Ideal) x0 x1 x2 x3 x4) x5 x6 x7 := by
  rw [logSoftmax_eq, scores_eq]
  rfl

end Cert.ReferenceIdeal.RefValue

end
-- ==== Proof.Bridge.lean ====
/-
  The mean, two ways.

  The kernel program weights a node's neighbour sum by the reciprocal of its count, `nsum · (1 / cnt)`; the reference
  divides the neighbour sum by the count, `nsum / cnt`, with `cnt = max(deg, 1)`. The neighbour sum, the in-degree and
  the count are the same host operations of the same operands in both programs (their two printings name the shapes
  and the gather's and the scatters' dimension numbers separately; the names unfold to the same data). Since the count
  is at least one it is never zero, and on the extended reals `s · (1 · c⁻¹) = s · c⁻¹` whenever `c ≠ 0`: the two means
  agree at every node and feature, whatever the features and the edge list hold.
-/
import proofs.«103910_j56891136803141_1_alg».proof.Proof.KernelHost
import proofs.«103910_j56891136803141_1_alg».proof.Proof.RefRead
import proofs.«103910_j56891136803141_1_alg».proof.Proof.SageSpec

set_option maxRecDepth 16384

noncomputable section

namespace Cert.Bridge

open Idealize.ShloMosaic Idealize.ShloMosaic.TcCoe Idealize.ShloMosaic.ValueIdx
open Cert.KernelIdeal.Hst Cert.ReferenceIdeal.ReadP

/-! ## The two printings name the same host operations (at any float family) -/

section Names
variable {F : FTy → Type} [FloatOps F]

/-- The reference's neighbour sum of a feature array is the kernel program's. -/
theorem nsum_first (feat : (⟨Cert.ReferenceIdeal.S100000x128, .f32⟩ : BufTy).Contents (Elt F)) (x1 : (⟨Cert.ReferenceIdeal.S2x600000, .i32⟩ : BufTy).Contents (Elt F)) :
    Host.scatterAdd Cert.ReferenceIdeal.scatter_S100000x128_S600000x1_S600000x128_1_0_0_1 (val_main_v11 (F := F)) (val_main_v12 (F := F) x1)
        (Host.gather Cert.ReferenceIdeal.gather_S100000x128_S600000x1_S600000x128_1_0_n_n_0_1_1128 feat (val_main_v9 (F := F) x1))
      = nsum (F := F) feat (src x1) (dst x1) := rfl

/-- The same for the second layer's printing of it. -/
theorem nsum_second (feat : (⟨Cert.ReferenceIdeal.S100000x128, .f32⟩ : BufTy).Contents (Elt F)) (x1 : (⟨Cert.ReferenceIdeal.S2x600000, .i32⟩ : BufTy).Contents (Elt F)) :
    Host.scatterAdd Cert.ReferenceIdeal.scatter_S100000x128_S600000x1_S600000x128_1_0_0_1 (val_main_v37 (F := F)) (val_main_v38 (F := F) x1)
        (Host.gather Cert.ReferenceIdeal.gather_S100000x128_S600000x1_S600000x128_1_0_n_n_0_1_1128 feat (val_main_v35 (F := F) x1))
      = nsum (F := F) feat (src x1) (dst x1) := rfl

/-- The reference's spread count, in its first printing, is the kernel program's count, spread. -/
theorem cnt_first (x1 : (⟨Cert.ReferenceIdeal.S2x600000, .i32⟩ : BufTy).Contents (Elt F)) :
    val_main_v21 (F := F) x1 = spread (cnt (dst x1)) := rfl

/-- The same for its second printing. -/
theorem cnt_second (x1 : (⟨Cert.ReferenceIdeal.S2x600000, .i32⟩ : BufTy).Contents (Elt F)) :
    val_main_v47 (F := F) x1 = spread (cnt (dst x1)) := rfl

end Names

/-! ## The law, at the extended reals -/

/-- Weighting by the reciprocal of the count is dividing by the count: at node `p` and feature `q` both sides read the
    neighbour sum there and the count `max(deg p, 1)` at `p`, which is not zero. -/
theorem mean_eq (ns : FVec Ideal Cert.KernelIdeal.S100000x128 .f32) (d : (⟨Cert.KernelIdeal.S600000, .i32⟩ : BufTy).Contents (Elt Ideal)) :
    mulf ns (spread (F := Ideal) (rcp d) : FVec Ideal Cert.KernelIdeal.S100000x128 .f32)
      = Host.divf ns (spread (F := Ideal) (cnt d) : FVec Ideal Cert.KernelIdeal.S100000x128 .f32) := by
  funext j
  obtain ⟨p, q, rfl⟩ : ∃ (p : Fin 100000) (q : Fin 128), j = ix2 p q := ⟨j 0, j 1, eq_ix2 j⟩
  have hl : mulf ns (spread (F := Ideal) (rcp d) : FVec Ideal Cert.KernelIdeal.S100000x128 .f32) (ix2 p q)
      = ns (ix2 p q) * spread (F := Ideal) (rcp d) (ix2 p q) := rfl
  have hr : Host.divf ns (spread (F := Ideal) (cnt d) : FVec Ideal Cert.KernelIdeal.S100000x128 .f32) (ix2 p q)
      = FloatOps.hostDivf (ns (ix2 p q)) (spread (F := Ideal) (cnt d) (ix2 p q)) := rfl
  rw [hl, hr, spread_apply, spread_apply, rcp_apply, cnt_apply]
  simp only [Ideal.hostDivf_def, Ideal.maximumf_def, Ideal.ofBits_def]
  exact Cert.Sage.mul_recip_eq_div _ _ (Cert.Sage.max_one_ne_zero _)

/-- The kernel program's first aggregate is the reference's quotient stage. -/
theorem agg_first (x0 : (⟨Cert.ReferenceIdeal.S100000x128, .f32⟩ : BufTy).Contents (Elt Ideal)) (x1 : (⟨Cert.ReferenceIdeal.S2x600000, .i32⟩ : BufTy).Contents (Elt Ideal)) :
    aggMul (F := Ideal) x0 (src x1) (dst x1) (rcp (dst x1)) = val_main_v22 (F := Ideal) x0 x1 := by
  unfold aggMul val_main_v22 val_main_v13 val_main_v10
  rw [nsum_first, cnt_first, mean_eq]

/-- The kernel program's second aggregate, of any features the reference's hidden stage equals, is the reference's
    second quotient stage. -/
theorem agg_second (x0 : (⟨Cert.ReferenceIdeal.S100000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) :
    aggMul (F := Ideal) (val_main_v29 (F := Ideal) x0 x1 x2 x3 x4) (src x1) (dst x1) (rcp (dst x1)) = val_main_v48 (F := Ideal) x0 x1 x2 x3 x4 := by
  unfold aggMul val_main_v48 val_main_v39 val_main_v36
  rw [nsum_second, cnt_second, mean_eq]

end Cert.Bridge

end
-- ==== Proof.lean ====
/-
  Two layers of a graph convolution with mean aggregation, tiled over the nodes, against the whole-array reference.

  Both programs compute, for every node p,
      h(p)   = max( (Σ_κ a₁(p,κ)·W1l(κ,·) + b1) + Σ_κ x(p,κ)·W1r(κ,·), 0 ),
      out(p) = log-softmax over the 16 classes of (Σ_κ a₂(p,κ)·W2l(κ,·) + b2) + Σ_κ h(p,κ)·W2r(κ,·),
  where a₁ and a₂ are the means over a node's in-neighbours of x and of h. The kernel program forms the mean as
  (neighbour sum) · (1 / max(deg, 1)) on the host and runs each layer's dense part as a grid of 50 blocks of 2000
  nodes; the reference forms it as (neighbour sum) / max(deg, 1) and computes each layer on whole arrays.

  At the extended reals: a format change is the identity, both matrix products are the plain sum of products, the
  kernel's lane reductions and the host's reductions are the same folds, the layers are row-local so the 50 blocks
  assemble to the whole-array layer, and s · (1 · c⁻¹) = s · c⁻¹ for the count c = max(deg, 1) ≠ 0, with no appeal to
  finiteness of the inputs. The neighbour sums (a gather and an accumulating scatter) and the in-degree are the same
  host operations of the same operands in both programs and are never opened.
-/
import proofs.«103910_j56891136803141_1_alg».proof.Defs
import proofs.«103910_j56891136803141_1_alg».proof.Proof.Gen.Kernel
import proofs.«103910_j56891136803141_1_alg».proof.Proof.Gen.Kernel.Skeleton
import proofs.«103910_j56891136803141_1_alg».proof.Proof.Gen.Kernel.Launch
import proofs.«103910_j56891136803141_1_alg».proof.Proof.Gen.Kernel.Points
import proofs.«103910_j56891136803141_1_alg».proof.Proof.Gen.Kernel.Frame
import proofs.«103910_j56891136803141_1_alg».proof.Proof.Gen.KernelIdeal
import proofs.«103910_j56891136803141_1_alg».proof.Proof.Gen.KernelIdeal.Skeleton
import proofs.«103910_j56891136803141_1_alg».proof.Proof.Gen.KernelIdeal.Launch
import proofs.«103910_j56891136803141_1_alg».proof.Proof.Gen.KernelIdeal.Points
import proofs.«103910_j56891136803141_1_alg».proof.Proof.Gen.KernelIdeal.Frame
import proofs.«103910_j56891136803141_1_alg».proof.Proof.Gen.ReferenceIdeal
import proofs.«103910_j56891136803141_1_alg».proof.Proof.Gen.Pre_finite_inputs
import proofs.«103910_j56891136803141_1_alg».proof.Proof.KernelRun
import proofs.«103910_j56891136803141_1_alg».proof.Proof.KernelValue
import proofs.«103910_j56891136803141_1_alg».proof.Proof.RefStages
import proofs.«103910_j56891136803141_1_alg».proof.Proof.RefValue
import proofs.«103910_j56891136803141_1_alg».proof.Proof.Bridge
import Idealize.ShloMosaic.Adequacy
import Idealize.ShloMosaic.Init

set_option maxRecDepth 16384

noncomputable section

namespace Cert.Proof

open Idealize.ShloMosaic Idealize.SL.Sem

/-! ## The reference's run, its result at the last stage -/

/-- Every weakly fair execution of the reference terminates with its result at the last stage function of its
    arguments, and its arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v55)
          = Cert.ReferenceIdeal.ReadP.val_main_v55 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun _ h c => ⟨(h c Cert.ReferenceIdeal.main_v55).trans (Cert.ReferenceIdeal.Stages.result_stage (StableHlo.launchContents m c)),
      (h c Cert.ReferenceIdeal.main_arg0).trans (Cert.ReferenceIdeal.Stages.keep_arg0 (StableHlo.launchContents m c)),
      (h c Cert.ReferenceIdeal.main_arg1).trans (Cert.ReferenceIdeal.Stages.keep_arg1 (StableHlo.launchContents m c)),
      (h c Cert.ReferenceIdeal.main_arg2).trans (Cert.ReferenceIdeal.Stages.keep_arg2 (StableHlo.launchContents m c)),
      (h c Cert.ReferenceIdeal.main_arg3).trans (Cert.ReferenceIdeal.Stages.keep_arg3 (StableHlo.launchContents m c)),
      (h c Cert.ReferenceIdeal.main_arg4).trans (Cert.ReferenceIdeal.Stages.keep_arg4 (StableHlo.launchContents m c)),
      (h c Cert.ReferenceIdeal.main_arg5).trans (Cert.ReferenceIdeal.Stages.keep_arg5 (StableHlo.launchContents m c)),
      (h c Cert.ReferenceIdeal.main_arg6).trans (Cert.ReferenceIdeal.Stages.keep_arg6 (StableHlo.launchContents m c)),
      (h c Cert.ReferenceIdeal.main_arg7).trans (Cert.ReferenceIdeal.Stages.keep_arg7 (StableHlo.launchContents m c))⟩)
    (Cert.ReferenceIdeal.ValueP.run_after (F := Ideal) m ρ)

/-! ## The two results are one function of the arguments -/

open Cert.KernelIdeal.Hst Cert.ReferenceIdeal.ReadP in
/-- The reference's last stage is the kernel program's expression: the output layer of the weighted neighbour sum
    of the hidden features and of the hidden features, the hidden features the hidden layer of the weighted neighbour
    sum of the node features and of the node features. -/
theorem ref_eq_kernel
    (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128x16, .f32⟩ : BufTy).Contents (Elt Ideal))
    (x6 : (⟨Cert.ReferenceIdeal.S16, .f32⟩ : BufTy).Contents (Elt Ideal)) (x7 : (⟨Cert.ReferenceIdeal.S128x16, .f32⟩ : BufTy).Contents (Elt Ideal)) :
    val_main_v55 (F := Ideal) x0 x1 x2 x3 x4 x5 x6 x7
      = Cert.Sage.output
          (aggMul (F := Ideal) (Cert.Sage.hidden (aggMul (F := Ideal) x0 (src x1) (dst x1) (rcp (dst x1))) x0 x2 x3 x4) (src x1) (dst x1) (rcp (dst x1)))
          (Cert.Sage.hidden (aggMul (F := Ideal) x0 (src x1) (dst x1) (rcp (dst x1))) x0 x2 x3 x4) x5 x6 x7 := by
  rw [Cert.ReferenceIdeal.RefValue.output_eq, ← Cert.Bridge.agg_second, Cert.ReferenceIdeal.RefValue.hidden_eq, ← Cert.Bridge.agg_first]

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (ref_run m ρ)

/-- From memories agreeing on the arguments both programs end with the result array at the same function of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 m ρ c (Proc.devRef .tc Cert.KernelIdeal.main_v39), ?_, ?_⟩
  · exact (θ_run (Cert.KernelIdeal.defs (F := Ideal)) _ _).mono (fun _ h c => ⟨(h c).1, (h c).2⟩)
      (Cert.KernelIdeal.GenRun.run_result (F := Ideal) m ρ)
  · refine (θ_run (Cert.ReferenceIdeal.defs (F := Ideal)) _ _).mono (fun _ h c => ⟨(h c).1.trans ?_, (h c).2⟩) (ref_run m' ρ')
    obtain ⟨e0, e1, e2, e3, e4, e5, e6, e7⟩ := hagree c
    rw [e0, e1, e2, e3, e4, e5, e6, e7, ref_eq_kernel]
    exact (Cert.KernelIdeal.KValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
